-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.RbfSpec.lean ====
/-
  The Gaussian (RBF) Gram matrix of two point sets, as one function on the extended reals.

  For a point `u` of the first set and a point `v` of the second, each with 64 coordinates, the squared distance is
  taken in its expanded form `‖u‖² + ‖v‖² − 2⟨u, v⟩`, clamped below at zero, and the entry is the decaying exponential
  of it: `exp (−1 · max ((Σₖ uₖ² + Σₖ vₖ²) − 2 · Σₖ uₖ vₖ) 0)`. The three constants `−1`, `2` and `0` are kept as the
  binary32 words both programs carry, so neither is ever evaluated. The Gram matrix of 8192 points against 8192 points
  has this entry at `(i, j)` for row `i` of the first array and row `j` of the second.
-/
import Idealize.ShloMosaic.PureOps.Ideal
import Idealize.ShloMosaic.Lib.ValueIdx

noncomputable section

namespace Cert.Rbf

open Idealize.ShloMosaic Idealize.ShloMosaic.ValueIdx

/-- The kernel value of two points: `exp (−1 · max ((Σ u² + Σ v²) − 2 · Σ u·v) 0)`. -/
def entry (u v : Fin 64 → EReal) : EReal :=
  Ideal.exp (Ideal.ofBits .f32 0xBF800000#32
    * max (((∑ k : Fin 64, u k * u k) + ∑ k : Fin 64, v k * v k)
            - Ideal.ofBits .f32 0x40000000#32 * ∑ k : Fin 64, u k * v k)
          (Ideal.ofBits .f32 0x00000000#32))

/-- The Gram matrix: entry `(i, j)` is the kernel value of row `i` of `x` and row `j` of `y`. -/
def gram (x y : (⟨2, ![8192, 64]⟩ : Shape).Idx → EReal) : (⟨2, ![8192, 8192]⟩ : Shape).Idx → EReal :=
  fun i => entry (fun k => x (ix2 (i 0) k)) (fun k => y (ix2 (i 1) k))

/-- The Gram matrix at a pair of coordinates. -/
theorem gram_ix2 (x y : (⟨2, ![8192, 64]⟩ : Shape).Idx → EReal) (p q : Fin 8192) :
    gram x y (ix2 p q) = entry (fun k => x (ix2 p k)) (fun k => y (ix2 q k)) := rfl

end Cert.Rbf

end
-- ==== Proof.RefGram.lean ====
/-
  The reference computes the Gram matrix.

  Read one operation at a time, the reference's result at `(p, q)` is `exp` of `−1` times the maximum with `0` of
  `(‖x_p‖² + ‖y_q‖²) − 2 · ⟨x_p, y_q⟩`: each squared norm is the host's sum along the second axis (its initial value the
  zero word, which is `0`, plus the sum over the 64 coordinates), carried through the two broadcasts that make it a
  column, respectively a row, of the full matrix; the cross term is the host's contraction of the two arrays over their
  second axes. That is the Gram matrix's entry for row `p` of `x` and row `q` of `y`, term for term.
-/
import proofs.«142411_j65481071403856_1_alg».proof.Proof.Gen.ReferenceIdeal.Read
import proofs.«142411_j65481071403856_1_alg».proof.Proof.RbfSpec

noncomputable section

namespace Cert.Rbf.Reference

open Idealize.ShloMosaic Idealize.ShloMosaic.ValueIdx Cert.ReferenceIdeal Cert.ReferenceIdeal.Read

/-- Following a row's squared norm back through its two broadcasts: entry `(p, q)` of the spread column reads the
    first array at row `p`. -/
theorem idx_rowNorm (p q : Fin 8192) (k : Fin 64) :
    idx_main_v1 (idx_main_v5 (idx_main_v7 (ix2 p q))) k = ix2 p k :=
  funext fun a => Fin.ext (by match a with | ⟨0, _⟩ => rfl | ⟨1, _⟩ => rfl)

/-- Entry `(p, q)` of the spread row reads the second array at row `q`. -/
theorem idx_colNorm (p q : Fin 8192) (k : Fin 64) :
    idx_main_v3 (idx_main_v6 (idx_main_v8 (ix2 p q))) k = ix2 q k :=
  funext fun a => Fin.ext (by match a with | ⟨0, _⟩ => rfl | ⟨1, _⟩ => rfl)

/-- The contraction's left factor at `(p, q)`, `k` is the first array at `(p, k)`. -/
theorem idx_crossL (p q : Fin 8192) (k : Fin 64) : lidx_main_v4 (ix2 p q) k = ix2 p k :=
  funext fun a => Fin.ext (by match a with | ⟨0, _⟩ => rfl | ⟨1, _⟩ => rfl)

/-- The contraction's right factor at `(p, q)`, `k` is the second array at `(q, k)`. -/
theorem idx_crossR (p q : Fin 8192) (k : Fin 64) : ridx_main_v4 (ix2 p q) k = ix2 q k :=
  funext fun a => Fin.ext (by match a with | ⟨0, _⟩ => rfl | ⟨1, _⟩ => rfl)

/-- The reference's last stage is the Gram matrix of its two arguments. -/
theorem result_eq_gram (x y : (⟨S8192x64, .f32⟩ : BufTy).Contents (Elt Ideal)) :
    val_main_v17 (F := Ideal) x y = Cert.Rbf.gram x y := by
  funext i
  obtain ⟨p, q, rfl⟩ : ∃ (p q : Fin 8192), i = ix2 p q := ⟨i 0, i 1, eq_ix2 i⟩
  rw [Cert.Rbf.gram_ix2]
  rw [val_main_v17_apply, val_main_v16_apply, val_main_v15_apply, val_main_cst_3_apply, val_main_v14_apply,
    val_main_v13_apply, val_main_cst_2_apply, val_main_v12_apply, val_main_v9_apply, val_main_v7_apply,
    val_main_v5_apply, val_main_v1_apply, val_main_v8_apply, val_main_v6_apply, val_main_v3_apply,
    val_main_v11_apply, val_main_v10_apply, val_main_cst_1_apply, val_main_v4_apply, val_main_cst_apply,
    val_main_cst_0_apply]
  simp only [val_main_v0_apply, val_main_v2_apply, idx_rowNorm, idx_colNorm, idx_crossL, idx_crossR,
    Ideal.hostUnary_exp_def, Ideal.mulf_def, Ideal.maximumf_def, Ideal.subf_def, Ideal.addf_def, Ideal.ofBits_def,
    Ideal.ofBits_zero_f32, zero_add, Cert.Rbf.entry]

end Cert.Rbf.Reference

end
-- ==== Proof.LibColumn.lean ====
/-
  Column vectors, and the two sums of a Gram-matrix kernel, read at an index.

  A reduction that keeps its reduced axis leaves a length-`a` vector as a column `[a, 1]`; a kernel then lays that
  column as a row `[1, a]` or spreads it over `b` columns. Each of these is read here at a pair of coordinates. At the
  ideal values (extended reals, exact operations) a sum of an `[a, b]` matrix along its second axis, read at row `p`,
  is the sum over `k` of the entries `(p, k)`; and a matrix product `A · Bᵀ` into a zero accumulator, with `Bᵀ` given
  as the `[K, b]` operand, read at `(p, q)`, is the sum over the shared axis `k` of `A (p, k) · Bᵀ (k, q)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Column

open Idealize.ShloMosaic Idealize.ShloMosaic.ValueIdx

variable {α : Type}

/-- A length-`a` vector cast to a column `[a, 1]` reads, at `(p, z)`, the vector at `p`: both indices have the same
    row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    rw [Shape.rowMajor_val_one, Shape.rowMajor_val_two]
    show p.val = p.val * 1 + z.val
    have := z.isLt
    omega)

/-- A column `[a, 1]` spread over `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid as a row `[1, a]` reads, at `(z, q)`, the column's entry of row `q`. -/
theorem transpose_a1_1a_apply {a : ℕ} (v : (⟨2, ![a, 1]⟩ : Shape).Idx → α) (h : (⟨2, ![a, 1]⟩ : Shape).Transposes [1, 0] ⟨2, ![1, a]⟩)
    (z : Fin 1) (q : Fin a) : transpose ⟨2, ![1, a]⟩ [1, 0] v h (ix2 z q) = v (ix2 q z) :=
  transpose_ix2_apply v h z q

/-- At the ideal values the sum of an `[a, b]` matrix along its second axis, started from the zero word, read at row
    `p`, is the sum over the columns `k` of the entries `(p, k)`. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  exact Finset.sum_congr rfl fun k _ => congrArg v (funext fun c => Fin.ext (by
    match c with
    | ⟨0, _⟩ => rfl
    | ⟨1, _⟩ => rfl))

end Cert.Lib.Column

end
-- ==== Proof.BlockEntry.lean ====
/-
  What the kernel body stores, at a pair of coordinates.

  From a block `xb` of 1024 points of the first set and a block `yb` of 1024 points of the second, the body's one store
  holds, at `(p, q)`, the kernel value of point `p` of `xb` and point `q` of `yb`. Its pieces: the row sums of the
  squared blocks, kept as columns — the first spread over the columns, so that `(p, q)` reads `‖xb_p‖²`; the second laid
  as a row and spread over the rows, so that `(p, q)` reads `‖yb_q‖²` —; and the product of `xb` with the transposed
  `yb` into a zero accumulator, which at `(p, q)` is `Σₖ xb (p, k) · yb (q, k)`. The rest is pointwise.
-/
import proofs.«142411_j65481071403856_1_alg».proof.Proof.Gen.KernelIdeal.Skeleton
import proofs.«142411_j65481071403856_1_alg».proof.Proof.LibColumn
import proofs.«142411_j65481071403856_1_alg».proof.Proof.RbfSpec
import Idealize.ShloMosaic.Lib.ValueIdx
import Idealize.ShloMosaic.Lib.ValueLayout
import Idealize.ShloMosaic.PureOps.Ideal.Laws

noncomputable section

namespace Cert.Rbf.Block

open Idealize.ShloMosaic Idealize.ShloMosaic.ValueIdx Cert.KernelIdeal Cert.KernelIdeal.Gen Cert.Lib.Column

/-! ## The product's operand indices, axis by axis -/

theorem lhs_axis0 (i : S1024x1024.Idx) (r : dot_S1024x64_S64x1024_S1024x1024_1_0_0_1_n_n.contr.Idx) :
    (dot_S1024x64_S64x1024_S1024x1024_1_0_0_1_n_n.lhsIdx i r 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_axis1 (i : S1024x1024.Idx) (r : dot_S1024x64_S64x1024_S1024x1024_1_0_0_1_n_n.contr.Idx) :
    (dot_S1024x64_S64x1024_S1024x1024_1_0_0_1_n_n.lhsIdx i r 1).val = (r ⟨0, by decide⟩).val :=
  dot_S1024x64_S64x1024_S1024x1024_1_0_0_1_n_n.lhsIdx_val_of_single rfl i r
theorem rhs_axis0 (i : S1024x1024.Idx) (r : dot_S1024x64_S64x1024_S1024x1024_1_0_0_1_n_n.contr.Idx) :
    (dot_S1024x64_S64x1024_S1024x1024_1_0_0_1_n_n.rhsIdx i r 0).val = (r ⟨0, by decide⟩).val :=
  dot_S1024x64_S64x1024_S1024x1024_1_0_0_1_n_n.rhsIdx_val_of_single rfl i r
theorem rhs_axis1 (i : S1024x1024.Idx) (r : dot_S1024x64_S64x1024_S1024x1024_1_0_0_1_n_n.contr.Idx) :
    (dot_S1024x64_S64x1024_S1024x1024_1_0_0_1_n_n.rhsIdx i r 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a `[1024, 64]` block with a `[64, 1024]` operand into the zero accumulator, at `(p, q)`: the sum over
    the shared axis. -/
theorem cross_apply (a : FVec Ideal S1024x64 .f32) (bt : FVec Ideal S64x1024 .f32) (p q : Fin 1024) :
    matmul dot_S1024x64_S64x1024_S1024x1024_1_0_0_1_n_n none a bt (constant S1024x1024 .f32 0x00000000#32) (ix2 p q)
      = ∑ k : Fin 64, a (ix2 p k) * bt (ix2 k q) := by
  refine (Ideal.matmul_constant_zero_apply dot_S1024x64_S64x1024_S1024x1024_1_0_0_1_n_n none a bt (ix2 p q)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun c => Fin.ext (by
    match c with
    | ⟨0, _⟩ => exact lhs_axis0 _ _
    | ⟨1, _⟩ => exact (lhs_axis1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun c => Fin.ext (by
    match c with
    | ⟨0, _⟩ => exact (rhs_axis0 _ _).trans hk
    | ⟨1, _⟩ => exact rhs_axis1 _ _)
  rw [el, er]

/-- A block's row sums started from the zero word, at row `p`: the sum over the 64 coordinates. (The accumulator's
    side condition is stated as the body carries it, `0 = 0` on words.) -/
theorem rowNorm_apply (v : FVec Ideal S1024x64 .f32) (hφ : FKind.Formats .f32)
    (hacc : (0x00000000#32 : BitVec 32) = 0x00000000#32) (p : Fin 1024) :
    multiReduction .add [1] S1024 v 0x00000000#32 reduces_S1024x64_S1024 hφ hacc (ix1 p) = ∑ k : Fin 64, v (ix2 p k) :=
  rowSum_apply v reduces_S1024x64_S1024 hφ hacc p

/-- The body's stored value at `(p, q)` is the kernel value of row `p` of the first block and row `q` of the second. -/
theorem pay_apply (xb yb : FVec Ideal S1024x64 .f32) (p q : Fin 1024) :
    k0_pay1 (F := Ideal) xb yb (ix2 p q) = Cert.Rbf.entry (fun k => xb (ix2 p k)) (fun k => yb (ix2 q k)) := by
  unfold k0_pay1
  simp only [exp, mulf, maximumf, subf, addf, broadcast, Scalar.ofBits]
  rw [broadcastTo_a1_ab_apply, shapeCast_a_a1_apply, rowNorm_apply, broadcastTo_1b_ab_apply, transpose_a1_1a_apply,
    shapeCast_a_a1_apply, rowNorm_apply, cross_apply]
  have ht : ∀ k : Fin 64, transpose S64x1024 [1, 0] yb transposes_S1024x64_p1_0_S64x1024 (ix2 k q) = yb (ix2 q k) :=
    fun k => transpose_ix2_apply yb _ k q
  simp only [ht, mulf, Ideal.exp_def, Ideal.mulf_def, Ideal.maximumf_def, Ideal.subf_def, Ideal.addf_def,
    Ideal.ofBits_def, Cert.Rbf.entry]

end Cert.Rbf.Block

end
-- ==== Proof.GramBlocks.lean ====
/-
  From blocks to the whole Gram matrix.

  The grid has 8 × 8 points. At point `(i, j)` the body is given rows `1024·i …` of the first array and rows
  `1024·j …` of the second, all 64 columns of each, and what it writes back is block `(i, j)` of the result: entry
  `(p, q)` of the block is entry `(1024·i + p, 1024·j + q)` of the array. Since the body's value at `(p, q)` is the
  kernel value of row `p` of its first block and row `q` of its second, and those rows ARE rows `1024·i + p` and
  `1024·j + q` of the arrays, every point writes back its block of ONE function, the Gram matrix of the two arrays.
  The 64 blocks tile the 8192 × 8192 result (row `r`, column `s` lies in block `(r / 1024, s / 1024)`), so after the
  run the result array is the Gram matrix.
-/
import proofs.«142411_j65481071403856_1_alg».proof.Proof.Gen.KernelIdeal.Value
import proofs.«142411_j65481071403856_1_alg».proof.Proof.BlockEntry

set_option maxRecDepth 16384

noncomputable section

namespace Cert.Rbf.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- Where the three windows' blocks sit at a grid point, decided over the 64 points: the first input's block row is the
    output's block row, the second input's block row is the output's block column, both inputs take all columns, and
    the output's block indices are below 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 blocks of the result is some point's. -/
theorem block_onto : ∀ (b0 b1 : Fin 8), ∃ t : Fin cfg0.N, win0_2.index t = ![b0.val, b1.val] :=
  (by decide +kernel : ∀ (b0 b1 : Fin 8), ∃ t : Fin grid0.N, win0_2.index t = ![b0.val, b1.val])

/-- WHAT POINT `t` WRITES BACK is block `t` of the Gram matrix of the two argument arrays. -/
theorem flushed_eq (c : Dev nD) (t : Fin cfg0.N) :
    (dats m 0 c).flushed 2 t
      = ((cfg0.win 2).blk t).view.read (Elt Ideal) (Cert.Rbf.gram (V m c main_arg0) (V m c main_arg1)) := by
  rw [flushed2]
  unfold out0_2
  rw [View.canon_unit_zero off_zero]
  simp only [View.ld_unit_zero (S := S1024x64) off_zero]
  obtain ⟨e0, e1, e2, e3, -, -⟩ := block_indices t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = Cert.Rbf.gram (V m c main_arg0) (V m c main_arg1) (((cfg0.win 2).blk t).view.emb (ix2 p q))
  refine (Cert.Rbf.Block.pay_apply (iblk m c 0 t) (iblk m c 1 t) p q).trans ?_
  show Cert.Rbf.entry _ _ = Cert.Rbf.entry _ _
  congr 1
  · funext k
    show V m c main_arg0 (((cfg0.win 0).blk t).view.emb (ix2 p k))
      = V m c main_arg0 (ix2 ((((cfg0.win 2).blk t).view.emb (ix2 p q)) 0) k)
    refine congrArg _ (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 64 + 1 * k.val = k.val; omega
  · funext k
    show V m c main_arg1 (((cfg0.win 1).blk t).view.emb (ix2 q k))
      = V m c main_arg1 (ix2 ((((cfg0.win 2).blk t).view.emb (ix2 p q)) 1) k)
    refine congrArg _ (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 64 + 1 * k.val = k.val; omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The blocks tile the result: row `r`, column `s` lies in the block of the point at `(r / 1024, s / 1024)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the Gram matrix of the argument arrays as launched. -/
theorem final (c : Dev nD) :
    (dats m 0 c).arrAt 2 cfg0.N
      = Cert.Rbf.gram (m ((c : Thread nD τ).loc main_arg0)) (m ((c : Thread nD τ).loc main_arg1)) :=
  (dats m 0 c).arrAt_eq_of_cover 2 (Cert.Rbf.gram (V m c main_arg0) (V m c main_arg1))
    (fun t _ => flushed_eq m c t) covered

/-- The kernel's run with its result named: the Gram matrix of the arguments, which end unchanged. -/
theorem run : θ_run defs (onTc (τ := τ) (main (F := Ideal))) ⟨m, fun _ => 0, ρ⟩ fun r => ∀ c : Dev nD,
      r.2.mem ((c : Thread nD τ).loc main_v0)
        = Cert.Rbf.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Rbf.Blocks

end
-- ==== Proof.lean ====
/-
  A Gaussian (RBF) Gram matrix: `exp (−‖x_i − y_j‖²)` for 8192 points `x_i` against 8192 points `y_j` in 64 dimensions,
  the squared distance taken as `‖x_i‖² + ‖y_j‖² − 2⟨x_i, y_j⟩` and clamped below at zero.

  The kernel tiles the 8192 × 8192 result in 8 × 8 blocks of 1024 × 1024. For block `(i, j)` it loads 1024 rows of `x`
  and 1024 rows of `y`, sums the squares of each row, multiplies the `x` block with the transposed `y` block, combines
  the three pointwise and stores the block. The reference computes the same expression on the whole arrays: two sums
  along the second axis, one contraction over it, two broadcasts and the same pointwise tail, with the same three
  constants `2`, `0` and `−1` given by the same binary32 words.

  On the extended reals both are ONE function of the two arrays, the Gram matrix `Cert.Rbf.gram` (Proof/RbfSpec.lean):
  a sum over a block's row is the sum over the array's row (the block IS those rows), the product with the transpose
  read at `(p, q)` is the same sum of products the contraction is, and the remaining operations act entry by entry.
  No law of arithmetic beyond that is used: the two sides agree term for term, so nothing is asked of the inputs'
  finiteness. The reference's side is Proof/RefGram.lean; the kernel body's stored value at a pair of coordinates is
  Proof/BlockEntry.lean; that the 64 blocks written back assemble into the whole matrix is Proof/GramBlocks.lean.
  The three programs' runs (termination, no fault, arguments unchanged) are the generated frames and the generated
  reading of the reference's run; the kernel and its idealization are the same text, so nothing is owed between them.
-/
import proofs.«142411_j65481071403856_1_alg».proof.Defs
import proofs.«142411_j65481071403856_1_alg».proof.Proof.Gen.Kernel
import proofs.«142411_j65481071403856_1_alg».proof.Proof.Gen.Kernel.Skeleton
import proofs.«142411_j65481071403856_1_alg».proof.Proof.Gen.Kernel.Launch
import proofs.«142411_j65481071403856_1_alg».proof.Proof.Gen.Kernel.Points
import proofs.«142411_j65481071403856_1_alg».proof.Proof.Gen.Kernel.Frame
import proofs.«142411_j65481071403856_1_alg».proof.Proof.Gen.KernelIdeal
import proofs.«142411_j65481071403856_1_alg».proof.Proof.Gen.KernelIdeal.Skeleton
import proofs.«142411_j65481071403856_1_alg».proof.Proof.Gen.KernelIdeal.Launch
import proofs.«142411_j65481071403856_1_alg».proof.Proof.Gen.KernelIdeal.Points
import proofs.«142411_j65481071403856_1_alg».proof.Proof.Gen.KernelIdeal.Frame
import proofs.«142411_j65481071403856_1_alg».proof.Proof.Gen.ReferenceIdeal
import proofs.«142411_j65481071403856_1_alg».proof.Proof.Gen.Pre_finite_inputs
import proofs.«142411_j65481071403856_1_alg».proof.Proof.Gen.KernelIdeal.Value
import proofs.«142411_j65481071403856_1_alg».proof.Proof.Gen.ReferenceIdeal.Run
import proofs.«142411_j65481071403856_1_alg».proof.Proof.Gen.ReferenceIdeal.Read
import proofs.«142411_j65481071403856_1_alg».proof.Proof.RefGram
import proofs.«142411_j65481071403856_1_alg».proof.Proof.GramBlocks
import Idealize.ShloMosaic.Adequacy
import Idealize.ShloMosaic.Init

noncomputable section

namespace Cert.Proof

open Idealize.ShloMosaic Idealize.SL.Sem

/-- The kernel as printed runs to the end without a fault and leaves its two arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array and the reference's result are both the Gram matrix of the
    two arguments: the kernel's by its blocks (Proof/GramBlocks.lean), the reference's read operation by operation
    (Proof/RefGram.lean). -/
theorem algebraic : Cert.algebraic_KernelIdeal_ReferenceIdeal := by
  intro m ρ m' ρ' _ hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Reference.result_eq_gram, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
